-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x1024 : Shape := ⟨3, ![64, 64, 1024]⟩
abbrev S4096x4096 : Shape := ⟨2, ![4096, 4096]⟩
abbrev S_ : Shape := ⟨0, ![]⟩

class Facts : Prop where
  bcast_S_S64x64x1024 : S_.BroadcastsInDim S64x64x1024 (![] : Fin 0 → Fin S64x64x1024.rank)
  reducesTo_S64x64x1024_S_d0_1_2 : S64x64x1024.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S64x64x1024 .f32) (main_arg1 : FVec F S4096x4096 .f32) : IVec S_ 1 :=
  let main_v0 : FVec F S64x64x1024 .f32 := Host.absf main_arg0
  let main_cst : FVec F S_ .f32 := constant S_ .f32 0x7F800000#32
  let main_v1 : FVec F S64x64x1024 .f32 := broadcastInDim S64x64x1024 ![] bcast_S_S64x64x1024 main_cst
  let main_v2 : IVec S64x64x1024 1 := cmpf .olt main_v0 main_v1
  let main_c : IVec S_ 1 := constantI S_ 1 1#1
  let main_v3 : IVec S_ 1 := (fun x v => Host.reduce IntOp.andi x v reducesTo_S64x64x1024_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S64x64x1024 : Shape := ⟨3, ![64, 64, 1024]⟩
abbrev S4096x4096 : Shape := ⟨2, ![4096, 4096]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S64x64x1024, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S64x64x1024, .f32⟩
  | .local _ .vmem, ⟨0, _⟩ => ⟨S512x2048, .f32⟩
  | .local _ .vmem, ⟨1, _⟩ => ⟨S512x2048, .f32⟩
  | .local _ .vmem, ⟨2, _⟩ => ⟨S4096x1024, .f32⟩
  | .local _ .vmem, ⟨3, _⟩ => ⟨S512x1024, .f32⟩
  | .local _ .vmem, ⟨4, _⟩ => ⟨S512x1024, .f32⟩
  | _, _ => ⟨S64x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let c2048_i32 : BitVec 32 := 2048#32
  let v1 : BitVec 32 := Scalar.muli arg1 c2048_i32
  let v2 : Index := Scalar.indexCast v1
  let c0_1 : Index := 0#32
  ![v2.toNat, 0]
def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_2 : BitVec 32 := 0#32
  let v8 : BitVec 1 := Scalar.cmpi .ne v7 c0_i32_2
  v8

def k0_cond2 (i : grid0.Coords) : BitVec 1 :=
  let arg1 : BitVec 32 := BitVec.ofNat 32 (i 1).val
  let c0_i32_3 : BitVec 32 := 0#32
  let v9 : BitVec 1 := Scalar.cmpi .ne arg1 c0_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x64x1024_S4096x1024 : S64x64x1024.ShapeCasts S4096x1024
  inb_S512x2048_S512x2048_0_0 : ∀ a, (![0, 0] : Fin 2 → Nat) a + S512x2048.size a ≤ S512x2048.size a
  h_S512x2048 : 0 < S512x2048.numel
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S4096x1024_S64x64x1024 : S4096x1024.ShapeCasts S64x64x1024
  dot_S512x2048_S2048x1024_S512x1024_1_0_0_1_n_n_wf : DotDims.WF S512x2048 S2048x1024 S512x1024 [1] [0] [0] [1] [] []
  hrank0 : 0 < grid0.rank
  k0_off1_inb : ∀ i : grid0.Coords, ∀ a, (k0_off1 i) a + S2048x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S64x64x1024 : Shape := ⟨3, ![64, 64, 1024]⟩
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S64x64x1024, .f32⟩
  | .hbm, ⟨1, _⟩ => ⟨S4096x4096, .f32⟩
  | .hbm, ⟨2, _⟩ => ⟨S4096x1024, .f32⟩
  | .hbm, ⟨3, _⟩ => ⟨S4096x1024, .f32⟩
  | .hbm, ⟨4, _⟩ => ⟨S64x64x1024, .f32⟩
  | _, _ => ⟨S64x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S64x64x1024_S4096x1024 : S64x64x1024.ShapeCasts S4096x1024
  shapeCasts_S4096x1024_S64x64x1024 : S4096x1024.ShapeCasts S64x64x1024
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KernelCases.lean ====
/-
  The matmul body at a grid point `(i, k)` — row block `i` of eight, contraction chunk `k` of two — takes one of
  two paths: at `k = 0` it STORES the chunk's partial product into the output block, at `k ≠ 0` it ADDS the
  partial product to what the block holds. With the grid walked row-major (`t = 2·i + k`) the first path is
  taken at the even points and the second at the odd ones; exactly one of the two is taken at every point, so
  the output block is written at every point (the printed idleness table for the output window is false
  throughout), and it is written back to the array after the odd points only.
-/
import proofs.«152810_g18159121728183_cont_8to1_495_6_alg».proof.Proof.Gen.Kernel.Frame
import proofs.«152810_g18159121728183_cont_8to1_495_6_alg».proof.Proof.Gen.Kernel.Skeleton

noncomputable section

namespace Cert.Kernel.Acc

open Cert.Kernel Cert.Kernel.Gen
open Idealize.ShloMosaic Idealize.ShloMosaic.TcCoe Idealize.SL.Sem

/-- The body's first conditional holds: this is the chunk `k = 0`, whose partial product is stored. -/
abbrev isFirst (i : grid0.Coords) : Prop := k0_cond1 i = 1#1
/-- The body's second conditional holds: a chunk `k ≠ 0`, whose partial product is added in. -/
abbrev isLater (i : grid0.Coords) : Prop := k0_cond2 i = 1#1

/-- The first chunk is met at the even points of the row-major walk. -/
theorem isFirst_iff : ∀ t : Fin cfg0.N, isFirst (grid0.coords t) ↔ t.val % 2 = 0 :=
  (by decide +kernel : ∀ t : Fin grid0.N, isFirst (grid0.coords t) ↔ t.val % 2 = 0)
/-- A later chunk is met at the odd points. -/
theorem isLater_iff : ∀ t : Fin cfg0.N, isLater (grid0.coords t) ↔ t.val % 2 = 1 :=
  (by decide +kernel : ∀ t : Fin grid0.N, isLater (grid0.coords t) ↔ t.val % 2 = 1)

/-- The left operand's window is never idle. -/
theorem live_lhs : ∀ t : Fin cfg0.N, cfg0.idle 0 (grid0.coords t) = false := by decide +kernel
/-- The right operand's window is never idle. -/
theorem live_rhs : ∀ t : Fin cfg0.N, cfg0.idle 1 (grid0.coords t) = false := by decide +kernel
/-- The output's window is never idle: one of the two paths stores into it at every point. -/
theorem live_out : ∀ t : Fin cfg0.N, cfg0.idle 2 (grid0.coords t) = false := by decide +kernel

/-- The same at every setting of the grid's coordinates. -/
theorem live_out_all : ∀ i : grid0.Coords, cfg0.idle 2 i = false := by decide +kernel

/-- The staging memref the body is handed for each window at point `t`, and that each is a whole buffer. -/
abbrev memL (t : Fin cfg0.N) : Memref sig .tc .vmem S512x2048 .f32 := win0_0.stage (cfg0.slots t 0)
abbrev wholeL (t : Fin cfg0.N) : (memL t).IsWhole := hstage0_0 ((cfg0.slots t 0).cast nbuf0_0)
abbrev memR (t : Fin cfg0.N) : Memref sig .tc .vmem S4096x1024 .f32 := win0_1.stage (cfg0.slots t 1)
abbrev wholeR (t : Fin cfg0.N) : (memR t).IsWhole := hstage0_1 ((cfg0.slots t 1).cast nbuf0_1)
abbrev memO (t : Fin cfg0.N) : Memref sig .tc .vmem S512x1024 .f32 := win0_2.stage (cfg0.slots t 2)
abbrev wholeO (t : Fin cfg0.N) : (memO t).IsWhole := hstage0_2 ((cfg0.slots t 2).cast nbuf0_2)

end Cert.Kernel.Acc

end
-- ==== Proof.KernelRunFirst.lean ====
/-
  The body on the first contraction chunk (`k = 0`). Handed the left operand's block, the whole right operand
  and the output block's buffer at ANY contents, it loads the two operands, forms the partial product, and
  stores it over the whole output block; the operands' buffers are left as found. What the output buffer
  ends with is recorded as the list of pieces the stores wrote, found by running the body.
-/
import proofs.«152810_g18159121728183_cont_8to1_495_6_alg».proof.Proof.KernelCases

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first-chunk path leaves in the output block's buffer, with the proof that the body runs to
    any continuation that holds the operands as they were and the output buffer with those pieces written. -/
noncomputable def runFirst (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) :
    { P : List (View.Piece (Elt F) S512x1024 .f32) //
      ∀ (E : Set ℕ) (K : PUnit → sProp 𝕄),
        iprop(owns (c : Thread nD τ) aL fullShare xL ∗ owns (c : Thread nD τ) aR fullShare xR ∗ (∃ d, owns (c : Thread nD τ) aO fullShare d)
            ∗ (iprop(owns (c : Thread nD τ) aL fullShare xL ∗ owns (c : Thread nD τ) aR fullShare xR
                ∗ (∃ f, aO.view.loc (c : Thread nD τ) ↦[aO.view.set]{fullShare} aO.view.writes (Elt F) f P)) -∗ K ⟨⟩))
          ⊢ wp frame (wpE (defs₀ (F := F)) Variants.none c none) E (cc0__matmul_block i aL hL aR hR aO hO) K } := by
  refine ⟨?_, fun E K => ?run⟩
  case run =>
    simp only [cc0__matmul_block_eq_skeleton]; unfold cc0__matmul_block_skel
    unfold owns
    iintro ⟨⟨%fL, %hfL, HL⟩, ⟨%fR, %hfR, HR⟩, ⟨%d, %fO, -, HO⟩, Hk⟩
    obtain rfl := hL.eq_unread hfL; obtain rfl := hR.eq_unread hfR
    sl_exec (disch := first | exact h1 | exact h2)
    sl_step
    iapply Hk
    isplitl [HL]
    · iexists _; isplitr; · ipureintro; exact hL.read_unread _
      iexact HL
    isplitl [HR]
    · iexists _; isplitr; · ipureintro; exact hR.read_unread _
      iexact HR
    iexists _; iexact HO

end Cert.Kernel.Acc

end
-- ==== Proof.KernelRunLater.lean ====
/-
  The body on a later contraction chunk (`k ≠ 0`). Handed the left operand's block, the whole right operand
  and the output block's buffer at its running contents `acc`, it loads all three, adds the chunk's partial
  product to the running contents, and stores the sum over the whole output block; the operands' buffers are
  left as found. The pieces the store wrote are found by running the body.
-/
import proofs.«152810_g18159121728183_cont_8to1_495_6_alg».proof.Proof.KernelRunFirst

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the later-chunk path leaves in the output block's buffer over its running contents `acc`, with
    the proof that the body runs to any continuation that holds the operands as they were and the output
    buffer with those pieces written. -/
noncomputable def runLater (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) :
    { P : List (View.Piece (Elt F) S512x1024 .f32) //
      ∀ (E : Set ℕ) (K : PUnit → sProp 𝕄),
        iprop(owns (c : Thread nD τ) aL fullShare xL ∗ owns (c : Thread nD τ) aR fullShare xR ∗ owns (c : Thread nD τ) aO fullShare acc
            ∗ (iprop(owns (c : Thread nD τ) aL fullShare xL ∗ owns (c : Thread nD τ) aR fullShare xR
                ∗ (∃ f, aO.view.loc (c : Thread nD τ) ↦[aO.view.set]{fullShare} aO.view.writes (Elt F) f P)) -∗ K ⟨⟩))
          ⊢ wp frame (wpE (defs₀ (F := F)) Variants.none c none) E (cc0__matmul_block i aL hL aR hR aO hO) K } := by
  refine ⟨?_, fun E K => ?run⟩
  case run =>
    simp only [cc0__matmul_block_eq_skeleton]; unfold cc0__matmul_block_skel
    unfold owns
    iintro ⟨⟨%fL, %hfL, HL⟩, ⟨%fR, %hfR, HR⟩, ⟨%fO, %hfO, HO⟩, Hk⟩
    obtain rfl := hL.eq_unread hfL; obtain rfl := hR.eq_unread hfR; obtain rfl := hO.eq_unread hfO
    sl_exec (disch := first | exact h1 | exact h2)
    sl_step
    iapply Hk
    isplitl [HL]
    · iexists _; isplitr; · ipureintro; exact hL.read_unread _
      iexact HL
    isplitl [HR]
    · iexists _; isplitr; · ipureintro; exact hR.read_unread _
      iexact HR
    iexists _; iexact HO

end Cert.Kernel.Acc

end
-- ==== Proof.KernelPieces.lean ====
/-
  What each path of the body leaves in the output block's buffer, as a value. Either path ends with ONE store
  over the whole 512×1024 block, so its pieces cover the block and what is left is that store's payload:
  on the first chunk the partial product of the left block with rows `2048·k … 2048·k + 2047` of the right
  operand (`k = 0`), on a later chunk the running contents plus that partial product.
-/
import proofs.«152810_g18159121728183_cont_8to1_495_6_alg».proof.Proof.KernelRunLater
import Idealize.ShloMosaic.Lib.Pipeline.Value

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which contents are read back (any would do: a covering
    list of writes reads the same through every view of the shape). -/
abbrev viewO : View sig .tc .vmem S512x1024 .f32 := (Memref.whole cc0_stg2_0 : Memref sig .tc .vmem S512x1024 .f32).view

/-- The rows of the right operand that the body contracts at grid point `i = (·, k)`: the 2048 rows from `2048·k`. -/
abbrev chunk (i : grid0.Coords) (xR : Vec F S4096x1024 .f32) : Vec F S2048x1024 .f32 :=
  View.ld xR (Rect.unit (s := S4096x1024) (k0_off1 i) S2048x1024.size (k0_off1_inb i))

theorem zero_off : (![0, 0] : Fin 2 → Nat) = fun _ => 0 := funext fun a => by fin_cases a <;> rfl

/-- The first-chunk path's pieces cover the output block (one store of the block's own extents). -/
theorem coverFirst (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) (y : S512x1024.Idx) :
    ∃ pc ∈ (runFirst c i aL hL aR hR aO hO h1 h2 xL xR).1, y ∈ pc.1.set :=
  View.cover_of_tiledL (runFirst c i aL hL aR hR aO hO h1 h2 xL xR).1 S512x1024.size (by sl_kernel_rfl) y

/-- What the first-chunk path leaves in the output block's buffer: its pieces read back. -/
def outFirst (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) : Vec F S512x1024 .f32 :=
  viewO.read (Elt F) (viewO.writes (Elt F) viewO.junk (runFirst c i aL hL aR hR aO hO h1 h2 xL xR).1)

/-- The later-chunk path's pieces cover the output block (one store of the block's own extents). -/
theorem coverLater (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) (y : S512x1024.Idx) :
    ∃ pc ∈ (runLater c i aL hL aR hR aO hO h1 h2 xL xR acc).1, y ∈ pc.1.set :=
  View.cover_of_tiledL (runLater c i aL hL aR hR aO hO h1 h2 xL xR acc).1 S512x1024.size (by sl_kernel_rfl) y

/-- What the later-chunk path leaves in the output block's buffer over running contents `acc`: its pieces read back. -/
def outLater (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) : Vec F S512x1024 .f32 :=
  viewO.read (Elt F) (viewO.writes (Elt F) viewO.junk (runLater c i aL hL aR hR aO hO h1 h2 xL xR acc).1)

/-- On the first chunk the block is left at the partial product of the left block and the chunk's rows. -/
theorem outFirst_eq (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) :
    outFirst c i aL hL aR hR aO hO h1 h2 xL xR = k0_pay1 xL (chunk i xR) := by
  unfold outFirst
  rw [View.read_writes_eq_canon _ _ _ (coverFirst c i aL hL aR hR aO hO h1 h2 xL xR)]
  unfold runFirst
  dsimp only
  sl_unfold_words
  rw [View.canon_unit_zero zero_off]
  simp only [View.readAt_eq_ld, hL.read_unread, hR.read_unread, View.ld_unit_zero (S := S512x2048) zero_off]
  rfl

/-- On a later chunk the block is left at its running contents plus that partial product. -/
theorem outLater_eq (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) :
    outLater c i aL hL aR hR aO hO h1 h2 xL xR acc = k0_pay2 xL (chunk i xR) acc := by
  unfold outLater
  rw [View.read_writes_eq_canon _ _ _ (coverLater c i aL hL aR hR aO hO h1 h2 xL xR acc)]
  unfold runLater
  dsimp only
  sl_unfold_words
  rw [View.canon_unit_zero zero_off]
  simp only [View.readAt_eq_ld, hL.read_unread, hR.read_unread, hO.read_unread, View.ld_unit_zero (S := S512x2048) zero_off,
    View.ld_unit_zero (S := S512x1024) zero_off]
  rfl

end Cert.Kernel.Acc

end
-- ==== Proof.KernelFrame.lean ====
/-
  The frame of the program: every weakly fair execution terminates, nothing faults, the argument arrays end
  unchanged — with the output array's contents NAMED along the way. The output block's buffer is carried across
  the two contraction chunks of a row block: after an even point it holds the first chunk's partial product,
  after the odd point that follows it holds that plus the second chunk's, and only then is it written back.
  So what the buffer holds after point `n` is defined by recursion on `n` (`accAt`), the body at an odd point
  being handed what the body left at the point before.
-/
import proofs.«152810_g18159121728183_cont_8to1_495_6_alg».proof.Proof.KernelPieces

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem notLater_of_even (t : Fin cfg0.N) (h : t.val % 2 = 0) : ¬isLater (grid0.coords t) :=
  fun hl => by have := (isLater_iff t).mp hl; omega
theorem notFirst_of_odd (t : Fin cfg0.N) (h : t.val % 2 = 1) : ¬isFirst (grid0.coords t) :=
  fun hf => by have := (isFirst_iff t).mp hf; omega

/-- What the output block's buffer holds after the body at point `n`: at an even point the first chunk's
    partial product, at an odd point what the point before left plus the later chunk's. -/
def accAt (c : Dev nD) : (n : ℕ) → n < cfg0.N → Vec F S512x1024 .f32
  | 0, hn => outFirst c (grid0.coords ⟨0, hn⟩) (memL ⟨0, hn⟩) (wholeL ⟨0, hn⟩) (memR ⟨0, hn⟩) (wholeR ⟨0, hn⟩) (memO ⟨0, hn⟩) (wholeO ⟨0, hn⟩)
      ((isFirst_iff ⟨0, hn⟩).mpr (Nat.zero_mod _)) (notLater_of_even ⟨0, hn⟩ (Nat.zero_mod _)) (iblk m c 0 ⟨0, hn⟩) (iblk m c 1 ⟨0, hn⟩)
  | n + 1, hn =>
    if h0 : (n + 1) % 2 = 0 then
      outFirst c (grid0.coords ⟨n + 1, hn⟩) (memL ⟨n + 1, hn⟩) (wholeL ⟨n + 1, hn⟩) (memR ⟨n + 1, hn⟩) (wholeR ⟨n + 1, hn⟩) (memO ⟨n + 1, hn⟩) (wholeO ⟨n + 1, hn⟩)
        ((isFirst_iff ⟨n + 1, hn⟩).mpr h0) (notLater_of_even ⟨n + 1, hn⟩ h0) (iblk m c 0 ⟨n + 1, hn⟩) (iblk m c 1 ⟨n + 1, hn⟩)
    else
      outLater c (grid0.coords ⟨n + 1, hn⟩) (memL ⟨n + 1, hn⟩) (wholeL ⟨n + 1, hn⟩) (memR ⟨n + 1, hn⟩) (wholeR ⟨n + 1, hn⟩) (memO ⟨n + 1, hn⟩) (wholeO ⟨n + 1, hn⟩)
        (notFirst_of_odd ⟨n + 1, hn⟩ (Nat.mod_two_ne_zero.mp h0)) ((isLater_iff ⟨n + 1, hn⟩).mpr (Nat.mod_two_ne_zero.mp h0))
        (iblk m c 0 ⟨n + 1, hn⟩) (iblk m c 1 ⟨n + 1, hn⟩) (accAt c n (Nat.lt_of_succ_lt hn))

/-- At an even point: the first chunk's contents. -/
theorem accAt_even (c : Dev nD) (t : Fin cfg0.N) (h0 : t.val % 2 = 0) :
    accAt m c t.val t.isLt = outFirst c (grid0.coords t) (memL t) (wholeL t) (memR t) (wholeR t) (memO t) (wholeO t)
      ((isFirst_iff t).mpr h0) (notLater_of_even t h0) (iblk m c 0 t) (iblk m c 1 t) := by
  obtain ⟨n, hn⟩ := t
  cases n with
  | zero => exact rfl
  | succ n => exact (dif_pos h0).trans rfl

/-- At an odd point: the later chunk's contents over what the point before left. -/
theorem accAt_odd (c : Dev nD) (t : Fin cfg0.N) (h1 : t.val % 2 = 1) :
    accAt m c t.val t.isLt = outLater c (grid0.coords t) (memL t) (wholeL t) (memR t) (wholeR t) (memO t) (wholeO t)
      (notFirst_of_odd t h1) ((isLater_iff t).mpr h1) (iblk m c 0 t) (iblk m c 1 t)
      (accAt m c (t.val - 1) (Nat.lt_of_le_of_lt (Nat.sub_le _ _) t.isLt)) := by
  obtain ⟨n, hn⟩ := t
  cases n with
  | zero => exact absurd (show 0 % 2 = 1 from h1) (by decide)
  | succ n => exact (dif_neg (by dsimp only at h1; omega)).trans rfl

/-! ## The pipeline's proof data -/

/-- On core `c`: the arrays as the region finds them; after the body at point `t` each operand's buffer at
    its block and the output's at `accAt`; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = accAt m c t.val t.isLt := by dsimp only [dats]

/-- Each operand's current staging buffer holds its block at every point, fetched there or not. -/
theorem before_lhs (c : Dev nD) (t : Fin cfg0.N) (d) : (dats m 0 c).before 0 t d = iblk m c 0 t :=
  before0_0_of m (dats m 0 c) (A_eq m c 0) (after_lhs m c) t d
theorem before_rhs (c : Dev nD) (t : Fin cfg0.N) (d) : (dats m 0 c).before 1 t d = iblk m c 1 t :=
  before0_1_of m (dats m 0 c) (A_eq m c 1) (after_rhs m c) t d

/-- At an odd point the output's current staging buffer holds what the body left at the point before: the
    point is not the first, the even point before it does not write the block back, the window is live and
    its blocks are whole. -/
theorem before_out_odd (c : Dev nD) (t : Fin cfg0.N) (h1 : t.val % 2 = 1) (d) :
    (dats m 0 c).before 2 t d = accAt m c (t.val - 1) (Nat.lt_of_le_of_lt (Nat.sub_le _ _) t.isLt) := by
  rw [Dat.before_out_kept _ 2 rfl t (by omega)
    (Bool.eq_false_iff.mpr fun h => by have := (flush0_2 _).mp h; dsimp only at this; omega)
    live_out_all (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (memL t) fullShare ((dats m 0 c).before 0 t d))
    ∗ (∃ d, owns (c : Thread nD τ) (memR t) fullShare ((dats m 0 c).before 1 t d))
    ∗ (∃ d, owns (c : Thread nD τ) (memO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the operands' buffers hold their blocks; the parity of the point says which path is
    taken; on the later path the output's buffer holds what the point before left; so that path's run applies,
    and what it leaves is `accAt` there because its pieces cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (memL t) fullShare ((dats m 0 c).after 0 t) from by
      unfold Dat.leavesExact; rw [live_lhs t],
    show (dats m 0 c).leavesExact 1 t = owns (c : Thread nD τ) (memR t) fullShare ((dats m 0 c).after 1 t) from by
      unfold Dat.leavesExact; rw [live_rhs t],
    show (dats m 0 c).leavesExact 2 t = owns (c : Thread nD τ) (memO t) fullShare ((dats m 0 c).after 2 t) from by
      unfold Dat.leavesExact; rw [live_out t],
    after_lhs, after_rhs, after_out]
  have hN : t.val < 16 := lt_of_lt_of_eq t.isLt (show cfg0.N = 16 from N_0)
  by_cases h0 : t.val % 2 = 0
  · rw [accAt_even m c t h0]
    unfold outFirst
    iintro ⟨HΦ, Ho, ⟨%dL, HL⟩, ⟨%dR, HR⟩, ⟨%dO, HO⟩⟩
    iapply ((runFirst c (grid0.coords t) _ _ _ _ _ _ ((isFirst_iff t).mpr h0) (notLater_of_even t h0) (iblk m c 0 t) (iblk m c 1 t)).2 Set.univ _)
    isplitl [HL]; · iexact HL
    isplitl [HR]; · iexact HR
    isplitl [HO]; · iexists _; iexact HO
    iintro ⟨HL, HR, ⟨%e, HO⟩⟩
    isplitl [HΦ]; · iexact HΦ
    isplitl [Ho]; · iexact Ho
    isplitl [HL]; · iexact HL
    isplitl [HR]; · iexact HR
    unfold owns; iexists _; isplitr
    swap; · iexact HO
    ipureintro; exact View.read_writes_of_cover _ _ _ _ _ (coverFirst c _ _ _ _ _ _ _ _ _ _ _)
  · have h1 : t.val % 2 = 1 := Nat.mod_two_ne_zero.mp h0
    rw [accAt_odd m c t h1]
    simp only [before_out_odd m c t h1]
    unfold outLater
    iintro ⟨HΦ, Ho, ⟨%dL, HL⟩, ⟨%dR, HR⟩, ⟨%dO, HO⟩⟩
    iapply ((runLater c (grid0.coords t) _ _ _ _ _ _ (notFirst_of_odd t h1) ((isLater_iff t).mpr h1) (iblk m c 0 t) (iblk m c 1 t) _).2 Set.univ _)
    isplitl [HL]; · iexact HL
    isplitl [HR]; · iexact HR
    isplitl [HO]; · iexact HO
    iintro ⟨HL, HR, ⟨%e, HO⟩⟩
    isplitl [HΦ]; · iexact HΦ
    isplitl [Ho]; · iexact Ho
    isplitl [HL]; · iexact HL
    isplitl [HR]; · iexact HR
    unfold owns; iexists _; isplitr
    swap; · iexact HO
    ipureintro; exact View.read_writes_of_cover _ _ _ _ _ (coverLater c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at
    what the library computes from the proof data and every other unscoped buffer as the lines after the
    region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Acc

end
-- ==== Proof.KernelIdealCases.lean ====
/-
  The matmul body at a grid point `(i, k)` — row block `i` of eight, contraction chunk `k` of two — takes one of
  two paths: at `k = 0` it STORES the chunk's partial product into the output block, at `k ≠ 0` it ADDS the
  partial product to what the block holds. With the grid walked row-major (`t = 2·i + k`) the first path is
  taken at the even points and the second at the odd ones; exactly one of the two is taken at every point, so
  the output block is written at every point (the printed idleness table for the output window is false
  throughout), and it is written back to the array after the odd points only.
-/
import proofs.«152810_g18159121728183_cont_8to1_495_6_alg».proof.Proof.Gen.KernelIdeal.Frame
import proofs.«152810_g18159121728183_cont_8to1_495_6_alg».proof.Proof.Gen.KernelIdeal.Skeleton

noncomputable section

namespace Cert.KernelIdeal.Acc

open Cert.KernelIdeal Cert.KernelIdeal.Gen
open Idealize.ShloMosaic Idealize.ShloMosaic.TcCoe Idealize.SL.Sem

/-- The body's first conditional holds: this is the chunk `k = 0`, whose partial product is stored. -/
abbrev isFirst (i : grid0.Coords) : Prop := k0_cond1 i = 1#1
/-- The body's second conditional holds: a chunk `k ≠ 0`, whose partial product is added in. -/
abbrev isLater (i : grid0.Coords) : Prop := k0_cond2 i = 1#1

/-- The first chunk is met at the even points of the row-major walk. -/
theorem isFirst_iff : ∀ t : Fin cfg0.N, isFirst (grid0.coords t) ↔ t.val % 2 = 0 :=
  (by decide +kernel : ∀ t : Fin grid0.N, isFirst (grid0.coords t) ↔ t.val % 2 = 0)
/-- A later chunk is met at the odd points. -/
theorem isLater_iff : ∀ t : Fin cfg0.N, isLater (grid0.coords t) ↔ t.val % 2 = 1 :=
  (by decide +kernel : ∀ t : Fin grid0.N, isLater (grid0.coords t) ↔ t.val % 2 = 1)

/-- The left operand's window is never idle. -/
theorem live_lhs : ∀ t : Fin cfg0.N, cfg0.idle 0 (grid0.coords t) = false := by decide +kernel
/-- The right operand's window is never idle. -/
theorem live_rhs : ∀ t : Fin cfg0.N, cfg0.idle 1 (grid0.coords t) = false := by decide +kernel
/-- The output's window is never idle: one of the two paths stores into it at every point. -/
theorem live_out : ∀ t : Fin cfg0.N, cfg0.idle 2 (grid0.coords t) = false := by decide +kernel

/-- The same at every setting of the grid's coordinates. -/
theorem live_out_all : ∀ i : grid0.Coords, cfg0.idle 2 i = false := by decide +kernel

/-- The staging memref the body is handed for each window at point `t`, and that each is a whole buffer. -/
abbrev memL (t : Fin cfg0.N) : Memref sig .tc .vmem S512x2048 .f32 := win0_0.stage (cfg0.slots t 0)
abbrev wholeL (t : Fin cfg0.N) : (memL t).IsWhole := hstage0_0 ((cfg0.slots t 0).cast nbuf0_0)
abbrev memR (t : Fin cfg0.N) : Memref sig .tc .vmem S4096x1024 .f32 := win0_1.stage (cfg0.slots t 1)
abbrev wholeR (t : Fin cfg0.N) : (memR t).IsWhole := hstage0_1 ((cfg0.slots t 1).cast nbuf0_1)
abbrev memO (t : Fin cfg0.N) : Memref sig .tc .vmem S512x1024 .f32 := win0_2.stage (cfg0.slots t 2)
abbrev wholeO (t : Fin cfg0.N) : (memO t).IsWhole := hstage0_2 ((cfg0.slots t 2).cast nbuf0_2)

end Cert.KernelIdeal.Acc

end
-- ==== Proof.KernelIdealRunFirst.lean ====
/-
  The body on the first contraction chunk (`k = 0`). Handed the left operand's block, the whole right operand
  and the output block's buffer at ANY contents, it loads the two operands, forms the partial product, and
  stores it over the whole output block; the operands' buffers are left as found. What the output buffer
  ends with is recorded as the list of pieces the stores wrote, found by running the body.
-/
import proofs.«152810_g18159121728183_cont_8to1_495_6_alg».proof.Proof.KernelIdealCases

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the first-chunk path leaves in the output block's buffer, with the proof that the body runs to
    any continuation that holds the operands as they were and the output buffer with those pieces written. -/
noncomputable def runFirst (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) :
    { P : List (View.Piece (Elt F) S512x1024 .f32) //
      ∀ (E : Set ℕ) (K : PUnit → sProp 𝕄),
        iprop(owns (c : Thread nD τ) aL fullShare xL ∗ owns (c : Thread nD τ) aR fullShare xR ∗ (∃ d, owns (c : Thread nD τ) aO fullShare d)
            ∗ (iprop(owns (c : Thread nD τ) aL fullShare xL ∗ owns (c : Thread nD τ) aR fullShare xR
                ∗ (∃ f, aO.view.loc (c : Thread nD τ) ↦[aO.view.set]{fullShare} aO.view.writes (Elt F) f P)) -∗ K ⟨⟩))
          ⊢ wp frame (wpE (defs₀ (F := F)) Variants.none c none) E (cc0__matmul_block i aL hL aR hR aO hO) K } := by
  refine ⟨?_, fun E K => ?run⟩
  case run =>
    simp only [cc0__matmul_block_eq_skeleton]; unfold cc0__matmul_block_skel
    unfold owns
    iintro ⟨⟨%fL, %hfL, HL⟩, ⟨%fR, %hfR, HR⟩, ⟨%d, %fO, -, HO⟩, Hk⟩
    obtain rfl := hL.eq_unread hfL; obtain rfl := hR.eq_unread hfR
    sl_exec (disch := first | exact h1 | exact h2)
    sl_step
    iapply Hk
    isplitl [HL]
    · iexists _; isplitr; · ipureintro; exact hL.read_unread _
      iexact HL
    isplitl [HR]
    · iexists _; isplitr; · ipureintro; exact hR.read_unread _
      iexact HR
    iexists _; iexact HO

end Cert.KernelIdeal.Acc

end
-- ==== Proof.KernelIdealRunLater.lean ====
/-
  The body on a later contraction chunk (`k ≠ 0`). Handed the left operand's block, the whole right operand
  and the output block's buffer at its running contents `acc`, it loads all three, adds the chunk's partial
  product to the running contents, and stores the sum over the whole output block; the operands' buffers are
  left as found. The pieces the store wrote are found by running the body.
-/
import proofs.«152810_g18159121728183_cont_8to1_495_6_alg».proof.Proof.KernelIdealRunFirst

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the later-chunk path leaves in the output block's buffer over its running contents `acc`, with
    the proof that the body runs to any continuation that holds the operands as they were and the output
    buffer with those pieces written. -/
noncomputable def runLater (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) :
    { P : List (View.Piece (Elt F) S512x1024 .f32) //
      ∀ (E : Set ℕ) (K : PUnit → sProp 𝕄),
        iprop(owns (c : Thread nD τ) aL fullShare xL ∗ owns (c : Thread nD τ) aR fullShare xR ∗ owns (c : Thread nD τ) aO fullShare acc
            ∗ (iprop(owns (c : Thread nD τ) aL fullShare xL ∗ owns (c : Thread nD τ) aR fullShare xR
                ∗ (∃ f, aO.view.loc (c : Thread nD τ) ↦[aO.view.set]{fullShare} aO.view.writes (Elt F) f P)) -∗ K ⟨⟩))
          ⊢ wp frame (wpE (defs₀ (F := F)) Variants.none c none) E (cc0__matmul_block i aL hL aR hR aO hO) K } := by
  refine ⟨?_, fun E K => ?run⟩
  case run =>
    simp only [cc0__matmul_block_eq_skeleton]; unfold cc0__matmul_block_skel
    unfold owns
    iintro ⟨⟨%fL, %hfL, HL⟩, ⟨%fR, %hfR, HR⟩, ⟨%fO, %hfO, HO⟩, Hk⟩
    obtain rfl := hL.eq_unread hfL; obtain rfl := hR.eq_unread hfR; obtain rfl := hO.eq_unread hfO
    sl_exec (disch := first | exact h1 | exact h2)
    sl_step
    iapply Hk
    isplitl [HL]
    · iexists _; isplitr; · ipureintro; exact hL.read_unread _
      iexact HL
    isplitl [HR]
    · iexists _; isplitr; · ipureintro; exact hR.read_unread _
      iexact HR
    iexists _; iexact HO

end Cert.KernelIdeal.Acc

end
-- ==== Proof.KernelIdealPieces.lean ====
/-
  What each path of the body leaves in the output block's buffer, as a value. Either path ends with ONE store
  over the whole 512×1024 block, so its pieces cover the block and what is left is that store's payload:
  on the first chunk the partial product of the left block with rows `2048·k … 2048·k + 2047` of the right
  operand (`k = 0`), on a later chunk the running contents plus that partial product.
-/
import proofs.«152810_g18159121728183_cont_8to1_495_6_alg».proof.Proof.KernelIdealRunLater
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which contents are read back (any would do: a covering
    list of writes reads the same through every view of the shape). -/
abbrev viewO : View sig .tc .vmem S512x1024 .f32 := (Memref.whole cc0_stg2_0 : Memref sig .tc .vmem S512x1024 .f32).view

/-- The rows of the right operand that the body contracts at grid point `i = (·, k)`: the 2048 rows from `2048·k`. -/
abbrev chunk (i : grid0.Coords) (xR : Vec F S4096x1024 .f32) : Vec F S2048x1024 .f32 :=
  View.ld xR (Rect.unit (s := S4096x1024) (k0_off1 i) S2048x1024.size (k0_off1_inb i))

theorem zero_off : (![0, 0] : Fin 2 → Nat) = fun _ => 0 := funext fun a => by fin_cases a <;> rfl

/-- The first-chunk path's pieces cover the output block (one store of the block's own extents). -/
theorem coverFirst (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) (y : S512x1024.Idx) :
    ∃ pc ∈ (runFirst c i aL hL aR hR aO hO h1 h2 xL xR).1, y ∈ pc.1.set :=
  View.cover_of_tiledL (runFirst c i aL hL aR hR aO hO h1 h2 xL xR).1 S512x1024.size (by sl_kernel_rfl) y

/-- What the first-chunk path leaves in the output block's buffer: its pieces read back. -/
def outFirst (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) : Vec F S512x1024 .f32 :=
  viewO.read (Elt F) (viewO.writes (Elt F) viewO.junk (runFirst c i aL hL aR hR aO hO h1 h2 xL xR).1)

/-- The later-chunk path's pieces cover the output block (one store of the block's own extents). -/
theorem coverLater (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) (y : S512x1024.Idx) :
    ∃ pc ∈ (runLater c i aL hL aR hR aO hO h1 h2 xL xR acc).1, y ∈ pc.1.set :=
  View.cover_of_tiledL (runLater c i aL hL aR hR aO hO h1 h2 xL xR acc).1 S512x1024.size (by sl_kernel_rfl) y

/-- What the later-chunk path leaves in the output block's buffer over running contents `acc`: its pieces read back. -/
def outLater (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) : Vec F S512x1024 .f32 :=
  viewO.read (Elt F) (viewO.writes (Elt F) viewO.junk (runLater c i aL hL aR hR aO hO h1 h2 xL xR acc).1)

/-- On the first chunk the block is left at the partial product of the left block and the chunk's rows. -/
theorem outFirst_eq (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : isFirst i) (h2 : ¬isLater i)
    (xL : Vec F S512x2048 .f32) (xR : Vec F S4096x1024 .f32) :
    outFirst c i aL hL aR hR aO hO h1 h2 xL xR = k0_pay1 xL (chunk i xR) := by
  unfold outFirst
  rw [View.read_writes_eq_canon _ _ _ (coverFirst c i aL hL aR hR aO hO h1 h2 xL xR)]
  unfold runFirst
  dsimp only
  sl_unfold_words
  rw [View.canon_unit_zero zero_off]
  simp only [View.readAt_eq_ld, hL.read_unread, hR.read_unread, View.ld_unit_zero (S := S512x2048) zero_off]
  rfl

/-- On a later chunk the block is left at its running contents plus that partial product. -/
theorem outLater_eq (c : Dev nD) (i : grid0.Coords)
    (aL : Memref sig .tc .vmem S512x2048 .f32) (hL : aL.IsWhole) (aR : Memref sig .tc .vmem S4096x1024 .f32) (hR : aR.IsWhole)
    (aO : Memref sig .tc .vmem S512x1024 .f32) (hO : aO.IsWhole) (h1 : ¬isFirst i) (h2 : isLater i)
    (xL : Vec F S512x2048 .f32) (xR : Vec F S4096x1024 .f32) (acc : Vec F S512x1024 .f32) :
    outLater c i aL hL aR hR aO hO h1 h2 xL xR acc = k0_pay2 xL (chunk i xR) acc := by
  unfold outLater
  rw [View.read_writes_eq_canon _ _ _ (coverLater c i aL hL aR hR aO hO h1 h2 xL xR acc)]
  unfold runLater
  dsimp only
  sl_unfold_words
  rw [View.canon_unit_zero zero_off]
  simp only [View.readAt_eq_ld, hL.read_unread, hR.read_unread, hO.read_unread, View.ld_unit_zero (S := S512x2048) zero_off,
    View.ld_unit_zero (S := S512x1024) zero_off]
  rfl

end Cert.KernelIdeal.Acc

end
-- ==== Proof.KernelIdealFrame.lean ====
/-
  The frame of the program: every weakly fair execution terminates, nothing faults, the argument arrays end
  unchanged — with the output array's contents NAMED along the way. The output block's buffer is carried across
  the two contraction chunks of a row block: after an even point it holds the first chunk's partial product,
  after the odd point that follows it holds that plus the second chunk's, and only then is it written back.
  So what the buffer holds after point `n` is defined by recursion on `n` (`accAt`), the body at an odd point
  being handed what the body left at the point before.
-/
import proofs.«152810_g18159121728183_cont_8to1_495_6_alg».proof.Proof.KernelIdealPieces

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem notLater_of_even (t : Fin cfg0.N) (h : t.val % 2 = 0) : ¬isLater (grid0.coords t) :=
  fun hl => by have := (isLater_iff t).mp hl; omega
theorem notFirst_of_odd (t : Fin cfg0.N) (h : t.val % 2 = 1) : ¬isFirst (grid0.coords t) :=
  fun hf => by have := (isFirst_iff t).mp hf; omega

/-- What the output block's buffer holds after the body at point `n`: at an even point the first chunk's
    partial product, at an odd point what the point before left plus the later chunk's. -/
def accAt (c : Dev nD) : (n : ℕ) → n < cfg0.N → Vec F S512x1024 .f32
  | 0, hn => outFirst c (grid0.coords ⟨0, hn⟩) (memL ⟨0, hn⟩) (wholeL ⟨0, hn⟩) (memR ⟨0, hn⟩) (wholeR ⟨0, hn⟩) (memO ⟨0, hn⟩) (wholeO ⟨0, hn⟩)
      ((isFirst_iff ⟨0, hn⟩).mpr (Nat.zero_mod _)) (notLater_of_even ⟨0, hn⟩ (Nat.zero_mod _)) (iblk m c 0 ⟨0, hn⟩) (iblk m c 1 ⟨0, hn⟩)
  | n + 1, hn =>
    if h0 : (n + 1) % 2 = 0 then
      outFirst c (grid0.coords ⟨n + 1, hn⟩) (memL ⟨n + 1, hn⟩) (wholeL ⟨n + 1, hn⟩) (memR ⟨n + 1, hn⟩) (wholeR ⟨n + 1, hn⟩) (memO ⟨n + 1, hn⟩) (wholeO ⟨n + 1, hn⟩)
        ((isFirst_iff ⟨n + 1, hn⟩).mpr h0) (notLater_of_even ⟨n + 1, hn⟩ h0) (iblk m c 0 ⟨n + 1, hn⟩) (iblk m c 1 ⟨n + 1, hn⟩)
    else
      outLater c (grid0.coords ⟨n + 1, hn⟩) (memL ⟨n + 1, hn⟩) (wholeL ⟨n + 1, hn⟩) (memR ⟨n + 1, hn⟩) (wholeR ⟨n + 1, hn⟩) (memO ⟨n + 1, hn⟩) (wholeO ⟨n + 1, hn⟩)
        (notFirst_of_odd ⟨n + 1, hn⟩ (Nat.mod_two_ne_zero.mp h0)) ((isLater_iff ⟨n + 1, hn⟩).mpr (Nat.mod_two_ne_zero.mp h0))
        (iblk m c 0 ⟨n + 1, hn⟩) (iblk m c 1 ⟨n + 1, hn⟩) (accAt c n (Nat.lt_of_succ_lt hn))

/-- At an even point: the first chunk's contents. -/
theorem accAt_even (c : Dev nD) (t : Fin cfg0.N) (h0 : t.val % 2 = 0) :
    accAt m c t.val t.isLt = outFirst c (grid0.coords t) (memL t) (wholeL t) (memR t) (wholeR t) (memO t) (wholeO t)
      ((isFirst_iff t).mpr h0) (notLater_of_even t h0) (iblk m c 0 t) (iblk m c 1 t) := by
  obtain ⟨n, hn⟩ := t
  cases n with
  | zero => exact rfl
  | succ n => exact (dif_pos h0).trans rfl

/-- At an odd point: the later chunk's contents over what the point before left. -/
theorem accAt_odd (c : Dev nD) (t : Fin cfg0.N) (h1 : t.val % 2 = 1) :
    accAt m c t.val t.isLt = outLater c (grid0.coords t) (memL t) (wholeL t) (memR t) (wholeR t) (memO t) (wholeO t)
      (notFirst_of_odd t h1) ((isLater_iff t).mpr h1) (iblk m c 0 t) (iblk m c 1 t)
      (accAt m c (t.val - 1) (Nat.lt_of_le_of_lt (Nat.sub_le _ _) t.isLt)) := by
  obtain ⟨n, hn⟩ := t
  cases n with
  | zero => exact absurd (show 0 % 2 = 1 from h1) (by decide)
  | succ n => exact (dif_neg (by dsimp only at h1; omega)).trans rfl

/-! ## The pipeline's proof data -/

/-- On core `c`: the arrays as the region finds them; after the body at point `t` each operand's buffer at
    its block and the output's at `accAt`; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_lhs (c : Dev nD) (t : Fin cfg0.N) : (dats m 0 c).after 0 t = iblk m c 0 t := by dsimp only [dats]
theorem after_rhs (c : Dev nD) (t : Fin cfg0.N) : (dats m 0 c).after 1 t = iblk m c 1 t := by dsimp only [dats]
theorem after_out (c : Dev nD) (t : Fin cfg0.N) : (dats m 0 c).after 2 t = accAt m c t.val t.isLt := by dsimp only [dats]

/-- Each operand's current staging buffer holds its block at every point, fetched there or not. -/
theorem before_lhs (c : Dev nD) (t : Fin cfg0.N) (d) : (dats m 0 c).before 0 t d = iblk m c 0 t :=
  before0_0_of m (dats m 0 c) (A_eq m c 0) (after_lhs m c) t d
theorem before_rhs (c : Dev nD) (t : Fin cfg0.N) (d) : (dats m 0 c).before 1 t d = iblk m c 1 t :=
  before0_1_of m (dats m 0 c) (A_eq m c 1) (after_rhs m c) t d

/-- At an odd point the output's current staging buffer holds what the body left at the point before: the
    point is not the first, the even point before it does not write the block back, the window is live and
    its blocks are whole. -/
theorem before_out_odd (c : Dev nD) (t : Fin cfg0.N) (h1 : t.val % 2 = 1) (d) :
    (dats m 0 c).before 2 t d = accAt m c (t.val - 1) (Nat.lt_of_le_of_lt (Nat.sub_le _ _) t.isLt) := by
  rw [Dat.before_out_kept _ 2 rfl t (by omega)
    (Bool.eq_false_iff.mpr fun h => by have := (flush0_2 _).mp h; dsimp only at this; omega)
    live_out_all (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (memL t) fullShare ((dats m 0 c).before 0 t d))
    ∗ (∃ d, owns (c : Thread nD τ) (memR t) fullShare ((dats m 0 c).before 1 t d))
    ∗ (∃ d, owns (c : Thread nD τ) (memO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the operands' buffers hold their blocks; the parity of the point says which path is
    taken; on the later path the output's buffer holds what the point before left; so that path's run applies,
    and what it leaves is `accAt` there because its pieces cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_lhs, before_rhs]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (memL t) fullShare ((dats m 0 c).after 0 t) from by
      unfold Dat.leavesExact; rw [live_lhs t],
    show (dats m 0 c).leavesExact 1 t = owns (c : Thread nD τ) (memR t) fullShare ((dats m 0 c).after 1 t) from by
      unfold Dat.leavesExact; rw [live_rhs t],
    show (dats m 0 c).leavesExact 2 t = owns (c : Thread nD τ) (memO t) fullShare ((dats m 0 c).after 2 t) from by
      unfold Dat.leavesExact; rw [live_out t],
    after_lhs, after_rhs, after_out]
  have hN : t.val < 16 := lt_of_lt_of_eq t.isLt (show cfg0.N = 16 from N_0)
  by_cases h0 : t.val % 2 = 0
  · rw [accAt_even m c t h0]
    unfold outFirst
    iintro ⟨HΦ, Ho, ⟨%dL, HL⟩, ⟨%dR, HR⟩, ⟨%dO, HO⟩⟩
    iapply ((runFirst c (grid0.coords t) _ _ _ _ _ _ ((isFirst_iff t).mpr h0) (notLater_of_even t h0) (iblk m c 0 t) (iblk m c 1 t)).2 Set.univ _)
    isplitl [HL]; · iexact HL
    isplitl [HR]; · iexact HR
    isplitl [HO]; · iexists _; iexact HO
    iintro ⟨HL, HR, ⟨%e, HO⟩⟩
    isplitl [HΦ]; · iexact HΦ
    isplitl [Ho]; · iexact Ho
    isplitl [HL]; · iexact HL
    isplitl [HR]; · iexact HR
    unfold owns; iexists _; isplitr
    swap; · iexact HO
    ipureintro; exact View.read_writes_of_cover _ _ _ _ _ (coverFirst c _ _ _ _ _ _ _ _ _ _ _)
  · have h1 : t.val % 2 = 1 := Nat.mod_two_ne_zero.mp h0
    rw [accAt_odd m c t h1]
    simp only [before_out_odd m c t h1]
    unfold outLater
    iintro ⟨HΦ, Ho, ⟨%dL, HL⟩, ⟨%dR, HR⟩, ⟨%dO, HO⟩⟩
    iapply ((runLater c (grid0.coords t) _ _ _ _ _ _ (notFirst_of_odd t h1) ((isLater_iff t).mpr h1) (iblk m c 0 t) (iblk m c 1 t) _).2 Set.univ _)
    isplitl [HL]; · iexact HL
    isplitl [HR]; · iexact HR
    isplitl [HO]; · iexact HO
    iintro ⟨HL, HR, ⟨%e, HO⟩⟩
    isplitl [HΦ]; · iexact HΦ
    isplitl [Ho]; · iexact Ho
    isplitl [HL]; · iexact HL
    isplitl [HR]; · iexact HR
    unfold owns; iexists _; isplitr
    swap; · iexact HO
    ipureintro; exact View.read_writes_of_cover _ _ _ _ _ (coverLater c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at
    what the library computes from the proof data and every other unscoped buffer as the lines after the
    region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Acc

end
-- ==== Proof.SumHalves.lean ====
/-
  The one algebraic law of this certificate. The kernel contracts the 4096-long axis in two chunks of 2048
  (a first partial product stored, a second added to it); the reference contracts it in one go. Over any
  commutative additive monoid — the extended reals in particular, where `+` is associative and commutative
  with no finiteness needed — a sum over the 4096 contraction indices is the sum over the lower 2048 plus
  the sum over the upper 2048.
-/
import Idealize.ShloMosaic.PureOps.Ideal.Laws

namespace Cert.SumHalves

/-- A sum over `Fin 4096` splits at 2048: lower half plus upper half. -/
theorem sum_4096 {M : Type} [AddCommMonoid M] (f : Fin 4096 → M) :
    ∑ k : Fin 4096, f k
      = ∑ k : Fin 2048, f ⟨k.val, by omega⟩ + ∑ k : Fin 2048, f ⟨2048 + k.val, by omega⟩ :=
  Fin.sum_univ_add (a := 2048) (b := 2048) f

end Cert.SumHalves
-- ==== Proof.MatProd.lean ====
/-
  What both programs compute, as one function of the two argument arrays over the extended reals: the matrix
  product of the 4096×4096 array `M` and the 4096×1024 array `X`, entry `(r, q)` the sum over the 4096
  contraction indices `k` of `M[r, k] · X[k, q]`. The reference contracts in one go; the kernel in two chunks
  of 2048, the second added to the first — the same entry by the split of the sum at 2048.
-/
import Idealize.ShloMosaic.Lib.ValueIdx
import proofs.«152810_g18159121728183_cont_8to1_495_6_alg».proof.Proof.SumHalves

noncomputable section

namespace Cert.MatProd

open Idealize.ShloMosaic Idealize.ShloMosaic.ValueIdx

/-- The matrix product `M · X`, index by index. -/
def prod (M : (⟨2, ![4096, 4096]⟩ : Shape).Idx → EReal) (X : (⟨2, ![4096, 1024]⟩ : Shape).Idx → EReal) :
    (⟨2, ![4096, 1024]⟩ : Shape).Idx → EReal :=
  fun j => ∑ k : Fin 4096, M (ix2 (j 0) k) * X (ix2 k (j 1))

/-- An entry of the product is the contraction over the lower 2048 indices plus that over the upper 2048. -/
theorem prod_halves (M : (⟨2, ![4096, 4096]⟩ : Shape).Idx → EReal) (X : (⟨2, ![4096, 1024]⟩ : Shape).Idx → EReal)
    (r : Fin 4096) (q : Fin 1024) :
    prod M X (ix2 r q)
      = ∑ k : Fin 2048, M (ix2 r (⟨k.val, by omega⟩ : Fin 4096)) * X (ix2 (⟨k.val, by omega⟩ : Fin 4096) q)
        + ∑ k : Fin 2048, M (ix2 r (⟨2048 + k.val, by omega⟩ : Fin 4096)) * X (ix2 (⟨2048 + k.val, by omega⟩ : Fin 4096) q) :=
  Cert.SumHalves.sum_4096 (fun k => M (ix2 r k) * X (ix2 k q))

end Cert.MatProd

end
-- ==== Proof.KernelIdealValue.lean ====
/-
  The value the idealized kernel leaves, read at the extended reals. The output array is written back block by
  block: row block `i` (512 rows) after the odd point `t = 2·i + 1`, when its buffer holds the first chunk's
  partial product plus the second's. Entry `(p, q)` of that buffer is
    Σ_{k<2048} M[512·i + p, k] · X[k, q]  +  Σ_{k<2048} M[512·i + p, 2048 + k] · X[2048 + k, q],
  `M` the 4096×4096 argument and `X` the 4096×1024 reshape of the other — the two halves of the contraction
  that defines entry `(512·i + p, q)` of the matrix product `M · X`. The eight row blocks tile the array, so
  the array ends holding the product, and the reshape after the region is applied to it.
-/
import proofs.«152810_g18159121728183_cont_8to1_495_6_alg».proof.Proof.KernelIdealFrame
import proofs.«152810_g18159121728183_cont_8to1_495_6_alg».proof.Proof.MatProd
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.AccValue

open Cert.KernelIdeal Cert.KernelIdeal.Gen Cert.KernelIdeal.Acc
open Idealize.ShloMosaic Idealize.ShloMosaic.TcCoe Idealize.SL.Sem Idealize.ShloMosaic.ValueIdx
open Idealize.ShloMosaic.Pipeline (Dat)

/-! ## The body's matrix product at an entry -/

theorem lhs_axis0 (j : S512x1024.Idx) (q : dot_S512x2048_S2048x1024_S512x1024_1_0_0_1_n_n.contr.Idx) :
    (dot_S512x2048_S2048x1024_S512x1024_1_0_0_1_n_n.lhsIdx j q 0).val = (j 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_axis1 (j : S512x1024.Idx) (q : dot_S512x2048_S2048x1024_S512x1024_1_0_0_1_n_n.contr.Idx) :
    (dot_S512x2048_S2048x1024_S512x1024_1_0_0_1_n_n.lhsIdx j q 1).val = (q ⟨0, by decide⟩).val :=
  dot_S512x2048_S2048x1024_S512x1024_1_0_0_1_n_n.lhsIdx_val_of_single rfl j q
theorem rhs_axis0 (j : S512x1024.Idx) (q : dot_S512x2048_S2048x1024_S512x1024_1_0_0_1_n_n.contr.Idx) :
    (dot_S512x2048_S2048x1024_S512x1024_1_0_0_1_n_n.rhsIdx j q 0).val = (q ⟨0, by decide⟩).val :=
  dot_S512x2048_S2048x1024_S512x1024_1_0_0_1_n_n.rhsIdx_val_of_single rfl j q
theorem rhs_axis1 (j : S512x1024.Idx) (q : dot_S512x2048_S2048x1024_S512x1024_1_0_0_1_n_n.contr.Idx) :
    (dot_S512x2048_S2048x1024_S512x1024_1_0_0_1_n_n.rhsIdx j q 1).val = (j 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The chunk's partial product at entry `j`: the sum over the chunk's 2048 contraction indices. -/
theorem partial_apply (a : FVec Ideal S512x2048 .f32) (b : FVec Ideal S2048x1024 .f32) (p : Fin 512) (q : Fin 1024) :
    k0_pay1 (F := Ideal) a b (ix2 p q) = ∑ k : Fin 2048, a (ix2 p k) * b (ix2 k q) := by
  unfold k0_pay1
  rw [shapeCast_self]
  show FloatOps.matmul dot_S512x2048_S2048x1024_S512x1024_1_0_0_1_n_n none (φ₁ := .f32) (φ₂ := .f32) a b (constant S512x1024 .f32 0x00000000#32) (ix2 p q) = _
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-- A later chunk's payload at entry `j`: the running contents there plus the chunk's partial product. -/
theorem later_apply (a : FVec Ideal S512x2048 .f32) (b : FVec Ideal S2048x1024 .f32) (acc : FVec Ideal S512x1024 .f32) (p : Fin 512) (q : Fin 1024) :
    k0_pay2 (F := Ideal) a b acc (ix2 p q) = acc (ix2 p q) + ∑ k : Fin 2048, a (ix2 p k) * b (ix2 k q) := by
  unfold k0_pay2
  rw [shapeCast_self]
  show acc (ix2 p q) + k0_pay1 (F := Ideal) a b (ix2 p q) = _
  rw [partial_apply]

/-! ## The blocks the body is handed, read at an entry -/

variable (m : (ℓ : Loc nD τ sig) → Buf (Elt Ideal) ℓ) (ρ : Dev nD → PrngReg)

/-- The printed index maps and the chunk coordinate, decided over the grid walked row-major (`t = 2·i + k`). -/
theorem idx_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = t.val / 2 ∧ win0_2.index t (1 : Fin 2) = 0
    ∧ (grid0.coords t 1).val = t.val % 2 :=
  (by decide +kernel : ∀ t : Fin grid0.N, _)

/-- The left block at point `t = 2·i + k` is rows `512·i …`, columns `2048·k …` of the left argument. -/
theorem lhs_block_apply (c : Dev nD) (t : Fin cfg0.N) (p : Fin 512) (k : Fin 2048) (r kk : Fin 4096)
    (hr : r.val = 512 * (t.val / 2) + p.val) (hk : kk.val = 2048 * (t.val % 2) + k.val) :
    (iblk m c 0 t : Vec Ideal S512x2048 .f32) (ix2 p k) = m ((c : Thread nD τ).loc main_arg1) (ix2 r kk) := by
  obtain ⟨e0, e1, -⟩ := idx_facts t
  unfold iblk
  rw [View.read_apply]
  show V m c main_arg1 _ = _
  rw [V_main_arg1]
  congr 1
  funext a; apply Fin.ext
  match a with
  | ⟨0, _⟩ => show win0_0.index t (0 : Fin 2) * 512 + 1 * p.val = r.val; omega
  | ⟨1, _⟩ => show win0_0.index t (1 : Fin 2) * 2048 + 1 * k.val = kk.val; omega

/-- The rows the body contracts at point `t = 2·i + k` are rows `2048·k …` of the reshaped right argument. -/
theorem rhs_chunk_apply (c : Dev nD) (t : Fin cfg0.N) (k : Fin 2048) (q : Fin 1024) (kk : Fin 4096)
    (hk : kk.val = 2048 * (t.val % 2) + k.val) :
    chunk (grid0.coords t) (iblk m c 1 t : Vec Ideal S4096x1024 .f32) (ix2 k q) = V m c main_v0 (ix2 kk q) := by
  obtain ⟨-, -, e2, e3, -, -, e6⟩ := idx_facts t
  have eo := k0_off1_eq (grid0.coords t)
  show (iblk m c 1 t : Vec Ideal S4096x1024 .f32) ((Rect.unit (s := S4096x1024) (k0_off1 (grid0.coords t)) S2048x1024.size (k0_off1_inb _)).idx (ix2 k q)) = _
  unfold iblk
  rw [View.read_apply]
  show V m c main_v0 _ = V m c main_v0 _
  congr 1
  funext a; apply Fin.ext
  match a with
  | ⟨0, _⟩ =>
    show win0_1.index t (0 : Fin 2) * 4096 + 1 * ((k0_off1 (grid0.coords t)) 0 + 1 * k.val) = kk.val
    rw [eo]; show win0_1.index t (0 : Fin 2) * 4096 + 1 * (2048 * (grid0.coords t 1).val + 1 * k.val) = kk.val; omega
  | ⟨1, _⟩ =>
    show win0_1.index t (1 : Fin 2) * 1024 + 1 * ((k0_off1 (grid0.coords t)) 1 + 1 * q.val) = q.val
    rw [eo]; show win0_1.index t (1 : Fin 2) * 1024 + 1 * (0 + 1 * q.val) = q.val; omega

/-! ## What the output array ends holding -/

/-- The left argument array, the reshaped right one as the region finds it, and their product. -/
abbrev lhsArr (c : Dev nD) : S4096x4096.Idx → EReal := m ((c : Thread nD τ).loc main_arg1)
abbrev rhsArr (c : Dev nD) : S4096x1024.Idx → EReal := V m c main_v0
abbrev outArr (c : Dev nD) : Buf (Elt Ideal) ((c : Thread nD τ).loc main_v1) := Cert.MatProd.prod (lhsArr m c) (rhsArr m c)

/-- After the odd point `t = 2·i + 1` the output block's buffer holds rows `512·i …` of the product: the first
    chunk's partial product, left by the even point before, plus the second chunk's. -/
theorem acc_odd_apply (c : Dev nD) (t : Fin cfg0.N) (h1 : t.val % 2 = 1) (p : Fin 512) (q : Fin 1024) (r : Fin 4096)
    (hr : r.val = 512 * (t.val / 2) + p.val) :
    (accAt m c t.val t.isLt : FVec Ideal S512x1024 .f32) (ix2 p q) = Cert.MatProd.prod (lhsArr m c) (rhsArr m c) (ix2 r q) := by
  have hN : t.val < 16 := lt_of_lt_of_eq t.isLt (show cfg0.N = 16 from N_0)
  have hs : t.val - 1 < cfg0.N := Nat.lt_of_le_of_lt (Nat.sub_le _ _) t.isLt
  have hs0 : (⟨t.val - 1, hs⟩ : Fin cfg0.N).val % 2 = 0 := by show (t.val - 1) % 2 = 0; omega
  rw [accAt_odd m c t h1, outLater_eq]
  refine (later_apply _ _ _ p q).trans ?_
  rw [show accAt m c (t.val - 1) _ = accAt m c (⟨t.val - 1, hs⟩ : Fin cfg0.N).val (⟨t.val - 1, hs⟩ : Fin cfg0.N).isLt from rfl,
    accAt_even m c ⟨t.val - 1, hs⟩ hs0, outFirst_eq]
  refine (congrArg (· + _) (partial_apply _ _ p q)).trans ?_
  rw [Cert.MatProd.prod_halves]
  refine congrArg₂ (· + ·) (Finset.sum_congr rfl fun k _ => ?_) (Finset.sum_congr rfl fun k _ => ?_)
  · have hk : k.val < 2048 := k.isLt
    rw [lhs_block_apply m c ⟨t.val - 1, hs⟩ p k r ⟨k.val, by omega⟩ (by show r.val = 512 * ((t.val - 1) / 2) + p.val; omega)
        (by show k.val = 2048 * ((t.val - 1) % 2) + k.val; omega),
      rhs_chunk_apply m c ⟨t.val - 1, hs⟩ k q ⟨k.val, by omega⟩ (by show k.val = 2048 * ((t.val - 1) % 2) + k.val; omega)]
  · have hk : k.val < 2048 := k.isLt
    rw [lhs_block_apply m c t p k r ⟨2048 + k.val, by omega⟩ hr (by show 2048 + k.val = 2048 * (t.val % 2) + k.val; omega),
      rhs_chunk_apply m c t k q ⟨2048 + k.val, by omega⟩ (by show 2048 + k.val = 2048 * (t.val % 2) + k.val; omega)]

/-- What an odd point writes back is its block of the product. -/
theorem flushed_eq (c : Dev nD) (t : Fin cfg0.N) (hf : (cfg0.win 2).flush t = true) :
    (dats m 0 c).flushed 2 t = ((cfg0.win 2).blk t).view.read (Elt Ideal) (outArr m c) := by
  have h1 : t.val % 2 = 1 := (flush0_2 t).mp hf
  have hN : t.val < 16 := lt_of_lt_of_eq t.isLt (show cfg0.N = 16 from N_0)
  obtain ⟨-, -, -, -, e4, e5, -⟩ := idx_facts t
  show (cfg0.win 2).cut (grid0.coords t) ((dats m 0 c).after 2 t) = _
  rw [after_out]
  funext y
  obtain ⟨p, q, rfl⟩ : ∃ (p : Fin 512) (q : Fin 1024), y = ix2 p q := ⟨y 0, y 1, eq_ix2 y⟩
  have hp : p.val < 512 := p.isLt
  show (accAt m c t.val t.isLt : FVec Ideal S512x1024 .f32) (ix2 p q) = outArr m c (((cfg0.win 2).blk t).view.emb (ix2 p q))
  rw [acc_odd_apply m c t h1 p q ⟨512 * (t.val / 2) + p.val, by omega⟩ rfl]
  show Cert.MatProd.prod (lhsArr m c) (rhsArr m c) _ = Cert.MatProd.prod (lhsArr m c) (rhsArr m c) _
  congr 1
  funext a; apply Fin.ext
  match a with
  | ⟨0, _⟩ => show 512 * (t.val / 2) + p.val = win0_2.index t (0 : Fin 2) * 512 + 1 * p.val; omega
  | ⟨1, _⟩ => show q.val = win0_2.index t (1 : Fin 2) * 1024 + 1 * q.val; omega

/-- An index of the output array is in point `t`'s block iff each coordinate is in the block's range on its axis. -/
theorem mem_blk (t : Fin cfg0.N) (i : S4096x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- The eight row blocks tile the array: row `r` is in the block written back after point `2·(r / 512) + 1`. -/
theorem covered (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have ht : 2 * ((i 0).val / 512) + 1 < cfg0.N := by rw [show cfg0.N = 16 from N_0]; omega
  refine ⟨⟨2 * ((i 0).val / 512) + 1, ht⟩, (flush0_2 _).mpr (by show (2 * ((i 0).val / 512) + 1) % 2 = 1; omega), ?_⟩
  obtain ⟨-, -, -, -, e4, e5, -⟩ := idx_facts ⟨2 * ((i 0).val / 512) + 1, ht⟩
  have e4' : win0_2.index ⟨2 * ((i 0).val / 512) + 1, ht⟩ (0 : Fin 2) = (2 * ((i 0).val / 512) + 1) / 2 := e4
  rw [mem_blk]
  intro a
  match a with
  | ⟨0, _⟩ =>
    show win0_2.index ⟨2 * ((i 0).val / 512) + 1, ht⟩ (0 : Fin 2) * 512 ≤ (i 0).val ∧ (i 0).val < win0_2.index ⟨2 * ((i 0).val / 512) + 1, ht⟩ (0 : Fin 2) * 512 + 512
    omega
  | ⟨1, _⟩ =>
    show win0_2.index ⟨2 * ((i 0).val / 512) + 1, ht⟩ (1 : Fin 2) * 1024 ≤ (i 1).val ∧ (i 1).val < win0_2.index ⟨2 * ((i 0).val / 512) + 1, ht⟩ (1 : Fin 2) * 1024 + 1024
    omega

/-- So the output array ends holding the product. -/
theorem final (c : Dev nD) : (dats m 0 c).arrAt 2 cfg0.N = outArr m c :=
  (dats m 0 c).arrAt_eq_of_cover 2 (outArr m c) (flushed_eq m c) covered

/-! ## The run, read -/

/-- The right operand as the region finds it is the reshape of the first argument. -/
theorem rhsArr_eq (c : Dev nD) :
    rhsArr m c = shapeCast S4096x1024 (m ((c : Thread nD τ).loc main_arg0)) shapeCasts_S64x64x1024_S4096x1024 := by
  show StableHlo.after hostOps0 (fun b => m (c, b)) (Proc.devRef .tc main_v0) = _
  after_results
  rfl

/-- The program's result: the reshape, after the region, of the product of the second argument with the
    reshaped first. -/
abbrev result (c : Dev nD) : Buf (Elt Ideal) ((c : Thread nD τ).loc main_v2) :=
  shapeCast S64x64x1024
    (Cert.MatProd.prod (m ((c : Thread nD τ).loc main_arg1))
      (shapeCast S4096x1024 (m ((c : Thread nD τ).loc main_arg0)) shapeCasts_S64x64x1024_S4096x1024))
    shapeCasts_S4096x1024_S64x64x1024

/-- What the reshape after the region leaves in the result buffer. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = Cert.MatProd.prod (m ((c : Thread nD τ).loc main_arg1))
          (shapeCast S4096x1024 (m ((c : Thread nD τ).loc main_arg0)) shapeCasts_S64x64x1024_S4096x1024) :=
    ((Pipeline.withArrays_arr spec0 launch0.win.arr_inj c _ _ 2).trans (final m c)).trans
      (congrArg (Cert.MatProd.prod (lhsArr m c)) (rhsArr_eq m c))
  rw [hw]
  rfl

/-- The frame run re-posted: the result buffer at the reshaped product, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.AccValue

end
-- ==== Proof.RefIsProd.lean ====
/-
  The reference, read at the extended reals: its one `dot_general` of the 4096×4096 argument with the
  4096×1024 reshape of the other contracts all 4096 indices in one go, so entry `(r, q)` of its result is
  `Σ_k M[r, k] · X[k, q]` — the matrix product `MatProd.prod M X`, index by index.
-/
import proofs.«152810_g18159121728183_cont_8to1_495_6_alg».proof.Proof.Gen.ReferenceIdeal.Read
import proofs.«152810_g18159121728183_cont_8to1_495_6_alg».proof.Proof.MatProd

noncomputable section

namespace Cert.ReferenceIdeal.AsProd

open Cert.ReferenceIdeal Cert.ReferenceIdeal.Gen Cert.ReferenceIdeal.Read
open Idealize.ShloMosaic Idealize.ShloMosaic.TcCoe Idealize.SL.Sem Idealize.ShloMosaic.ValueIdx

/-- The reference's `dot_general` stage is the matrix product of its left operand and the reshaped right one. -/
theorem dot_is_prod (x0 : (⟨S64x64x1024, .f32⟩ : BufTy).Contents (Elt Ideal)) (x1 : (⟨S4096x4096, .f32⟩ : BufTy).Contents (Elt Ideal)) :
    val_main_v1 (F := Ideal) x0 x1 = Cert.MatProd.prod x1 (val_main_v0 (F := Ideal) x0) := by
  funext i
  rw [val_main_v1_apply]
  unfold Cert.MatProd.prod
  refine Finset.sum_congr rfl fun k _ => ?_
  have el : lidx_main_v1 i k = ix2 (i 0) k := funext fun a => Fin.ext (by
    match a with
    | ⟨0, _⟩ => rfl
    | ⟨1, _⟩ => rfl)
  have er : ridx_main_v1 i k = ix2 k (i 1) := funext fun a => Fin.ext (by
    match a with
    | ⟨0, _⟩ => rfl
    | ⟨1, _⟩ => rfl)
  rw [el, er]
  rfl

/-- So the reference's result is the reshape of the product of its second argument with the reshaped first. -/
theorem result_is (x0 : (⟨S64x64x1024, .f32⟩ : BufTy).Contents (Elt Ideal)) (x1 : (⟨S4096x4096, .f32⟩ : BufTy).Contents (Elt Ideal)) :
    val_main_v2 (F := Ideal) x0 x1
      = shapeCast S64x64x1024 (Cert.MatProd.prod x1 (shapeCast S4096x1024 x0 shapeCasts_S64x64x1024_S4096x1024))
          shapeCasts_S4096x1024_S64x64x1024 := by
  unfold val_main_v2
  rw [dot_is_prod]
  rfl

end Cert.ReferenceIdeal.AsProd

end
-- ==== Proof.lean ====
/-
  The kernel computes `out[b, c, :] = (matrix · inp.reshape(4096, 1024))[64·b + c, :]`: a 4096×4096 by 4096×1024
  matrix product on a grid of eight row blocks by two contraction chunks. At the first chunk of a row block
  the chunk's partial product is stored into the output block; at the second it is added to what the block
  holds; the block is written back to the array only then. The reference is one `dot_general` over the whole
  4096-long contraction, between the same two reshapes.

  At the extended reals both results are the reshape of the same array: entry `(r, q)` of the product is
  `Σ_{k<4096} M[r, k] · X[k, q]` for the reference, and for the kernel the sum over the lower 2048 indices plus
  the sum over the upper 2048 — equal because a finite sum in a commutative additive monoid splits at any
  point (no finiteness of the inputs is needed: only associativity and commutativity of `+`).

  The frames of the kernel and of its idealization carry the output block's running contents across the two
  points of a row block (the body at the odd point is handed what the even point left); the reference's
  frame is its run with the result dropped; the ideal pass rewrote nothing, so `preserves` is trivial.
-/
import proofs.«152810_g18159121728183_cont_8to1_495_6_alg».proof.Defs
import proofs.«152810_g18159121728183_cont_8to1_495_6_alg».proof.Proof.Gen.Kernel
import proofs.«152810_g18159121728183_cont_8to1_495_6_alg».proof.Proof.Gen.KernelIdeal
import proofs.«152810_g18159121728183_cont_8to1_495_6_alg».proof.Proof.Gen.ReferenceIdeal
import proofs.«152810_g18159121728183_cont_8to1_495_6_alg».proof.Proof.Gen.Pre_finite_inputs
import proofs.«152810_g18159121728183_cont_8to1_495_6_alg».proof.Proof.Gen.ReferenceIdeal.Run
import proofs.«152810_g18159121728183_cont_8to1_495_6_alg».proof.Proof.Gen.ReferenceIdeal.Read
import proofs.«152810_g18159121728183_cont_8to1_495_6_alg».proof.Proof.KernelFrame
import proofs.«152810_g18159121728183_cont_8to1_495_6_alg».proof.Proof.KernelIdealValue
import proofs.«152810_g18159121728183_cont_8to1_495_6_alg».proof.Proof.RefIsProd
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Acc.frame m ρ

/-- So does its idealization. -/
theorem frame_kernelIdeal : Cert.frame_KernelIdeal := fun m ρ _ => Cert.KernelIdeal.Acc.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result buffer at the reshape of the
    product of the second argument with the reshaped first: the kernel by its two half-contractions per row
    block, the reference by its one contraction. -/
theorem algebraic : Cert.algebraic_KernelIdeal_ReferenceIdeal := by
  intro m ρ m' ρ' _ hagree
  refine ⟨fun c => Cert.KernelIdeal.AccValue.result m c, Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.AsProd.result_is _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
